-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x128 : Shape := ⟨2, ![4096, 128]⟩
abbrev S128x4096 : Shape := ⟨2, ![128, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x4096 : S_.BroadcastsInDim S128x4096 (![] : Fin 0 → Fin S128x4096.rank)
  reducesTo_S128x4096_S_d0_1 : S128x4096.ReducesTo [0, 1] S_

variable [Facts]

def fn {F : FTy → Type} [FloatOps F] (main_arg0 : FVec F S8192x4096 .f32) (main_arg1 : FVec F S4096x128 .f32) (main_arg2 : FVec F S128x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128x4096 .f32 := Host.absf main_arg2
  let main_cst_2 : FVec F S_ .f32 := constant S_ .f32 0x7F800000#32
  let main_v10 : FVec F S128x4096 .f32 := broadcastInDim S128x4096 ![] bcast_S_S128x4096 main_cst_2
  let main_v11 : IVec S128x4096 1 := cmpf .olt main_v9 main_v10
  let main_c_3 : IVec S_ 1 := constantI S_ 1 1#1
  let main_v12 : IVec S_ 1 := (fun x v => Host.reduce IntOp.andi x v reducesTo_S128x4096_S_d0_1 h_S_) main_v11 main_c_3
  let main_v13 : IVec S_ 1 := andi main_v8 main_v12
  main_v13
-- ==== Kernel.lean ====
abbrev S8192x4096 : Shape := ⟨2, ![8192, 4096]⟩
abbrev S4096x128 : Shape := ⟨2, ![4096, 128]⟩
abbrev S128x4096 : Shape := ⟨2, ![128, 4096]⟩
abbrev S512x4096 : Shape := ⟨2, ![512, 4096]⟩
abbrev S128x2048 : Shape := ⟨2, ![128, 2048]⟩
abbrev S512x2048 : Shape := ⟨2, ![512, 2048]⟩
abbrev S512x128 : Shape := ⟨2, ![512, 128]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x128, .f32⟩
  | .hbm, ⟨2, _⟩ => ⟨S128x4096, .f32⟩
  | .hbm, ⟨3, _⟩ => ⟨S4096x128, .bf16⟩
  | .hbm, ⟨4, _⟩ => ⟨S128x4096, .bf16⟩
  | .hbm, ⟨5, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x128, .bf16⟩
  | .local _ .vmem, ⟨3, _⟩ => ⟨S128x2048, .bf16⟩
  | .local _ .vmem, ⟨4, _⟩ => ⟨S128x2048, .bf16⟩
  | .local _ .vmem, ⟨5, _⟩ => ⟨S512x2048, .f32⟩
  | .local _ .vmem, ⟨6, _⟩ => ⟨S512x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S512x2048_S512x2048_0_0 : ∀ a, (![0, 0] : Fin 2 → Nat) a + S512x2048.size a ≤ S512x2048.size a
  h_S512x2048 : 0 < S512x2048.numel
  dot_S512x4096_S4096x128_S512x128_1_0_0_1_n_n_wf : DotDims.WF S512x4096 S4096x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x4096.size a
  hwx0_2 : ∀ i : grid0.Coords, EltTy.bits .bf16 = 32 ∨ (Rect.block (s := S128x4096) S128x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x4096.size a
  hwx0_3 : ∀ i : grid0.Coords, EltTy.bits .f32 = 32 ∨ (Rect.block (s := S8192x4096) S512x2048.size (cc0_transform_3 i) (hinb0_3 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x128 : Shape := ⟨2, ![4096, 128]⟩
abbrev S128x4096 : Shape := ⟨2, ![128, 4096]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x128, .f32⟩
  | .hbm, ⟨2, _⟩ => ⟨S128x4096, .f32⟩
  | .hbm, ⟨3, _⟩ => ⟨S8192x128, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S8192x4096_S4096x128_S8192x128_1_0_0_1_n_n_wf : DotDims.WF S8192x4096 S4096x128 S8192x128 [1] [0] [0] [1] [] []
  dot_S8192x128_S128x4096_S8192x4096_1_0_0_1_n_n_wf : DotDims.WF S8192x128 S128x4096 S8192x4096 [1] [0] [0] [1] [] []

variable [Facts₀]

def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x128_S128x4096_S8192x4096_1_0_0_1_n_n : DotDims S8192x128 S128x4096 S8192x4096 where
  lhsContracting := [1]
  rhsContracting := [0]
  lhsNonContracting := [0]
  rhsNonContracting := [1]
  lhsBatch := []
  rhsBatch := []
  wf := dot_S8192x128_S128x4096_S8192x4096_1_0_0_1_n_n_wf

class Facts : Prop extends Facts₀ where

variable [Facts]
-- ==== Proof.LowRank.lean ====
/-
  The low-rank product. For matrices `x` (M × K), `a` (K × R) and `b` (R × N) over the extended reals, the entry of
  `(x · a) · b` at row `p` and column `q` is
      Σ_r (Σ_k x[p,k] · a[k,r]) · b[r,q],
  the inner sum taken first. Both programs of this certificate compute exactly this double sum in exactly this
  grouping: nothing is re-associated and no factor is moved across a sum, so no law of the extended reals is used
  beyond reading each sum at an index, and the finiteness of the inputs is never needed.
  An entry depends on ONE row of `x`, all of `a`, and ONE column of `b` (`entry_congr`); this is what lets a tile of the
  output be computed from a row block of `x` and a column block of `b`.
-/
import Idealize.ShloMosaic.PureOps.Ideal
import Idealize.ShloMosaic.Lib.ValueIdx

noncomputable section

namespace Cert.LowRank

open Idealize.ShloMosaic Idealize.ShloMosaic.ValueIdx

/-- Entry `(p, q)` of `(x · a) · b`: the inner products of row `p` of `x` with the columns of `a`, then the inner
    product of those with column `q` of `b`. -/
def entry {M K R N : ℕ} (x : (⟨2, ![M, K]⟩ : Shape).Idx → EReal) (a : (⟨2, ![K, R]⟩ : Shape).Idx → EReal)
    (b : (⟨2, ![R, N]⟩ : Shape).Idx → EReal) (p : Fin M) (q : Fin N) : EReal :=
  ∑ r : Fin R, (∑ k : Fin K, x (ix2 p k) * a (ix2 k r)) * b (ix2 r q)

/-- An entry reads row `p` of `x`, every entry of `a`, and column `q` of `b`, and nothing else: two triples of
    matrices that agree there have the same entry, whatever their other rows and columns (and row and column counts). -/
theorem entry_congr {M M' K R N N' : ℕ}
    (x : (⟨2, ![M, K]⟩ : Shape).Idx → EReal) (x' : (⟨2, ![M', K]⟩ : Shape).Idx → EReal)
    (a a' : (⟨2, ![K, R]⟩ : Shape).Idx → EReal)
    (b : (⟨2, ![R, N]⟩ : Shape).Idx → EReal) (b' : (⟨2, ![R, N']⟩ : Shape).Idx → EReal)
    (p : Fin M) (p' : Fin M') (q : Fin N) (q' : Fin N')
    (hx : ∀ k : Fin K, x (ix2 p k) = x' (ix2 p' k))
    (ha : ∀ (k : Fin K) (r : Fin R), a (ix2 k r) = a' (ix2 k r))
    (hb : ∀ r : Fin R, b (ix2 r q) = b' (ix2 r q')) :
    entry x a b p q = entry x' a' b' p' q' := by
  unfold entry
  refine Finset.sum_congr rfl fun r _ => ?_
  rw [hb r]
  refine congrArg (· * b' (ix2 r q')) (Finset.sum_congr rfl fun k _ => ?_)
  rw [hx k, ha k r]

/-- The whole product of an 8192 × 4096, a 4096 × 128 and a 128 × 4096 matrix, as one array. -/
def product (x : (⟨2, ![8192, 4096]⟩ : Shape).Idx → EReal) (a : (⟨2, ![4096, 128]⟩ : Shape).Idx → EReal)
    (b : (⟨2, ![128, 4096]⟩ : Shape).Idx → EReal) : (⟨2, ![8192, 4096]⟩ : Shape).Idx → EReal :=
  fun i => entry x a b (i 0) (i 1)

/-- The array at row `p`, column `q`. -/
theorem product_apply (x : (⟨2, ![8192, 4096]⟩ : Shape).Idx → EReal) (a : (⟨2, ![4096, 128]⟩ : Shape).Idx → EReal)
    (b : (⟨2, ![128, 4096]⟩ : Shape).Idx → EReal) (p : Fin 8192) (q : Fin 4096) :
    product x a b (ix2 p q) = entry x a b p q := rfl

end Cert.LowRank

end
-- ==== Proof.ReferenceValue.lean ====
/-
  The reference's result is the low-rank product. The reference is two matrix products on the host,
  `(x · a)` and then `(· ) · b`; read at row `p` and column `q`, the second is the sum over `r` of the first's entry
  `(p, r)` times `b[r, q]`, and the first's entry `(p, r)` is the sum over `k` of `x[p, k] · a[k, r]`: the double sum
  `LowRank.entry`, term for term.
-/
import proofs.«425009_j85633057948172_3_alg».proof.Proof.Gen.ReferenceIdeal.Read
import proofs.«425009_j85633057948172_3_alg».proof.Proof.LowRank

noncomputable section

namespace Cert.ReferenceIdeal.RefValue

open Cert.ReferenceIdeal Cert.ReferenceIdeal.Read Idealize.ShloMosaic Idealize.ShloMosaic.ValueIdx

/-- The outer product reads its left operand at row `p`, column `r`, -/
theorem outer_left (p : Fin 8192) (q : Fin 4096) (r : Fin 128) : lidx_main_v1 (ix2 p q) r = ix2 p r :=
  funext fun a => Fin.ext (by match a with | ⟨0, _⟩ => rfl | ⟨1, _⟩ => rfl)
/-- and its right operand at row `r`, column `q`. -/
theorem outer_right (p : Fin 8192) (q : Fin 4096) (r : Fin 128) : ridx_main_v1 (ix2 p q) r = ix2 r q :=
  funext fun a => Fin.ext (by match a with | ⟨0, _⟩ => rfl | ⟨1, _⟩ => rfl)
/-- The inner product at `(p, r)` reads `x` at row `p`, column `k`, -/
theorem inner_left (p : Fin 8192) (r : Fin 128) (k : Fin 4096) : lidx_main_v0 (ix2 p r) k = ix2 p k :=
  funext fun a => Fin.ext (by match a with | ⟨0, _⟩ => rfl | ⟨1, _⟩ => rfl)
/-- and `a` at row `k`, column `r`. -/
theorem inner_right (p : Fin 8192) (r : Fin 128) (k : Fin 4096) : ridx_main_v0 (ix2 p r) k = ix2 k r :=
  funext fun a => Fin.ext (by match a with | ⟨0, _⟩ => rfl | ⟨1, _⟩ => rfl)

/-- The reference's result array is the low-rank product of its three arguments. -/
theorem result_eq (x : (⟨S8192x4096, .f32⟩ : BufTy).Contents (Elt Ideal)) (a : (⟨S4096x128, .f32⟩ : BufTy).Contents (Elt Ideal))
    (b : (⟨S128x4096, .f32⟩ : BufTy).Contents (Elt Ideal)) :
    val_main_v1 (F := Ideal) x a b = Cert.LowRank.product x a b := by
  funext i
  obtain ⟨p, q, rfl⟩ : ∃ (p : Fin 8192) (q : Fin 4096), i = ix2 p q := ⟨i 0, i 1, eq_ix2 i⟩
  rw [val_main_v1_apply, Cert.LowRank.product_apply]
  unfold Cert.LowRank.entry
  refine Finset.sum_congr rfl fun r _ => ?_
  rw [outer_left, outer_right, val_main_v0_apply]
  refine congrArg (· * b (ix2 r q)) (Finset.sum_congr rfl fun k _ => ?_)
  rw [inner_left, inner_right]

end Cert.ReferenceIdeal.RefValue

end
-- ==== Proof.Payload.lean ====
/-
  What one grid step computes. The body loads a 512 × 4096 block `x₀` of the input, the whole 4096 × 128 factor `a₀` and
  a 128 × 2048 block `b₀` of the second factor, multiplies `x₀ · a₀` into a zero accumulator, and multiplies the result
  by `b₀` into another zero accumulator. Over the extended reals the changes of float format in between are the
  identity and a product into a zero accumulator is the plain sum over the contracted axis, so the value stored at row
  `p`, column `q` of the step's 512 × 2048 tile is `Σ_r (Σ_k x₀[p,k] · a₀[k,r]) · b₀[r,q]`: `LowRank.entry` of the three
  loaded blocks.
-/
import proofs.«425009_j85633057948172_3_alg».proof.Proof.Gen.KernelIdeal.Skeleton
import proofs.«425009_j85633057948172_3_alg».proof.Proof.LowRank
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The first product: 512 × 4096 by 4096 × 128, contracted over the 4096 axis -/

theorem lhs_first_0 (i : S512x128.Idx) (c : dot_S512x4096_S4096x128_S512x128_1_0_0_1_n_n.contr.Idx) :
    (dot_S512x4096_S4096x128_S512x128_1_0_0_1_n_n.lhsIdx i c 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_first_1 (i : S512x128.Idx) (c : dot_S512x4096_S4096x128_S512x128_1_0_0_1_n_n.contr.Idx) :
    (dot_S512x4096_S4096x128_S512x128_1_0_0_1_n_n.lhsIdx i c 1).val = (c ⟨0, by decide⟩).val :=
  dot_S512x4096_S4096x128_S512x128_1_0_0_1_n_n.lhsIdx_val_of_single rfl i c
theorem rhs_first_0 (i : S512x128.Idx) (c : dot_S512x4096_S4096x128_S512x128_1_0_0_1_n_n.contr.Idx) :
    (dot_S512x4096_S4096x128_S512x128_1_0_0_1_n_n.rhsIdx i c 0).val = (c ⟨0, by decide⟩).val :=
  dot_S512x4096_S4096x128_S512x128_1_0_0_1_n_n.rhsIdx_val_of_single rfl i c
theorem rhs_first_1 (i : S512x128.Idx) (c : dot_S512x4096_S4096x128_S512x128_1_0_0_1_n_n.contr.Idx) :
    (dot_S512x4096_S4096x128_S512x128_1_0_0_1_n_n.rhsIdx i c 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- Entry `(p, r)` of the first product into a zero accumulator is the inner product of row `p` with column `r`. -/
theorem first_apply (l : FVec Ideal S512x4096 .bf16) (r : FVec Ideal S4096x128 .bf16) (p : Fin 512) (s : Fin 128) :
    matmul dot_S512x4096_S4096x128_S512x128_1_0_0_1_n_n none l r (constant S512x128 .f32 0x00000000#32) (ix2 p s)
      = ∑ k : Fin 4096, l (ix2 p k) * r (ix2 k s) := by
  refine (Ideal.matmul_constant_zero_apply dot_S512x4096_S4096x128_S512x128_1_0_0_1_n_n none l r (ix2 p s)).trans ?_
  rw [← Equiv.sum_comp (contrEquiv1 dot_S512x4096_S4096x128_S512x128_1_0_0_1_n_n 4096 rfl rfl).symm]
  refine Finset.sum_congr rfl fun k _ => ?_
  have hk := contrEquiv1_symm_val dot_S512x4096_S4096x128_S512x128_1_0_0_1_n_n 4096 rfl rfl k
  have el : dot_S512x4096_S4096x128_S512x128_1_0_0_1_n_n.lhsIdx (ix2 p s) ((contrEquiv1 dot_S512x4096_S4096x128_S512x128_1_0_0_1_n_n 4096 rfl rfl).symm k) = ix2 p k := funext fun a => Fin.ext (by
    match a with
    | ⟨0, _⟩ => exact lhs_first_0 _ _
    | ⟨1, _⟩ => exact (lhs_first_1 _ _).trans hk)
  have er : dot_S512x4096_S4096x128_S512x128_1_0_0_1_n_n.rhsIdx (ix2 p s) ((contrEquiv1 dot_S512x4096_S4096x128_S512x128_1_0_0_1_n_n 4096 rfl rfl).symm k) = ix2 k s := funext fun a => Fin.ext (by
    match a with
    | ⟨0, _⟩ => exact (rhs_first_0 _ _).trans hk
    | ⟨1, _⟩ => exact rhs_first_1 _ _)
  rw [el, er]

/-! ## The second product: 512 × 128 by 128 × 2048, contracted over the 128 axis -/

theorem lhs_second_0 (i : S512x2048.Idx) (c : dot_S512x128_S128x2048_S512x2048_1_0_0_1_n_n.contr.Idx) :
    (dot_S512x128_S128x2048_S512x2048_1_0_0_1_n_n.lhsIdx i c 0).val = (i 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem lhs_second_1 (i : S512x2048.Idx) (c : dot_S512x128_S128x2048_S512x2048_1_0_0_1_n_n.contr.Idx) :
    (dot_S512x128_S128x2048_S512x2048_1_0_0_1_n_n.lhsIdx i c 1).val = (c ⟨0, by decide⟩).val :=
  dot_S512x128_S128x2048_S512x2048_1_0_0_1_n_n.lhsIdx_val_of_single rfl i c
theorem rhs_second_0 (i : S512x2048.Idx) (c : dot_S512x128_S128x2048_S512x2048_1_0_0_1_n_n.contr.Idx) :
    (dot_S512x128_S128x2048_S512x2048_1_0_0_1_n_n.rhsIdx i c 0).val = (c ⟨0, by decide⟩).val :=
  dot_S512x128_S128x2048_S512x2048_1_0_0_1_n_n.rhsIdx_val_of_single rfl i c
theorem rhs_second_1 (i : S512x2048.Idx) (c : dot_S512x128_S128x2048_S512x2048_1_0_0_1_n_n.contr.Idx) :
    (dot_S512x128_S128x2048_S512x2048_1_0_0_1_n_n.rhsIdx i c 1).val = (i 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- Entry `(p, q)` of the second product into a zero accumulator is the inner product of row `p` with column `q`. -/
theorem second_apply (l : FVec Ideal S512x128 .bf16) (r : FVec Ideal S128x2048 .bf16) (p : Fin 512) (q : Fin 2048) :
    matmul dot_S512x128_S128x2048_S512x2048_1_0_0_1_n_n none l r (constant S512x2048 .f32 0x00000000#32) (ix2 p q)
      = ∑ s : Fin 128, l (ix2 p s) * r (ix2 s q) := by
  refine (Ideal.matmul_constant_zero_apply dot_S512x128_S128x2048_S512x2048_1_0_0_1_n_n none l r (ix2 p q)).trans ?_
  rw [← Equiv.sum_comp (contrEquiv1 dot_S512x128_S128x2048_S512x2048_1_0_0_1_n_n 128 rfl rfl).symm]
  refine Finset.sum_congr rfl fun s _ => ?_
  have hs := contrEquiv1_symm_val dot_S512x128_S128x2048_S512x2048_1_0_0_1_n_n 128 rfl rfl s
  have el : dot_S512x128_S128x2048_S512x2048_1_0_0_1_n_n.lhsIdx (ix2 p q) ((contrEquiv1 dot_S512x128_S128x2048_S512x2048_1_0_0_1_n_n 128 rfl rfl).symm s) = ix2 p s := funext fun a => Fin.ext (by
    match a with
    | ⟨0, _⟩ => exact lhs_second_0 _ _
    | ⟨1, _⟩ => exact (lhs_second_1 _ _).trans hs)
  have er : dot_S512x128_S128x2048_S512x2048_1_0_0_1_n_n.rhsIdx (ix2 p q) ((contrEquiv1 dot_S512x128_S128x2048_S512x2048_1_0_0_1_n_n 128 rfl rfl).symm s) = ix2 s q := funext fun a => Fin.ext (by
    match a with
    | ⟨0, _⟩ => exact (rhs_second_0 _ _).trans hs
    | ⟨1, _⟩ => exact rhs_second_1 _ _)
  rw [el, er]

/-! ## The stored value -/

/-- The value the step stores at row `p`, column `q` of its tile is the low-rank product's entry `(p, q)` of the three
    loaded blocks. -/
theorem stored_apply (x₀ : Vec Ideal S512x4096 .f32) (a₀ : Vec Ideal S4096x128 .bf16) (b₀ : Vec Ideal S128x2048 .bf16)
    (p : Fin 512) (q : Fin 2048) :
    k0_pay1 (F := Ideal) x₀ a₀ b₀ (ix2 p q) = Cert.LowRank.entry x₀ a₀ b₀ p q := by
  unfold k0_pay1
  refine (second_apply _ _ p q).trans ?_
  unfold Cert.LowRank.entry
  refine Finset.sum_congr rfl fun s _ => ?_
  rw [shapeCast_self, truncf_apply, first_apply, shapeCast_self]
  refine congrArg (· * b₀ (ix2 s q)) (Finset.sum_congr rfl fun k _ => ?_)
  rw [truncf_apply]

end Cert.KernelIdeal.Payload

end
-- ==== Proof.Tiles.lean ====
/-
  From tiles to the whole array. The grid has 16 × 2 steps; step `(i, j)` reads the row block `i` of the input (rows
  `512·i … 512·i + 511`, all 4096 columns), the whole first factor, and the column block `j` of the second factor
  (all 128 rows, columns `2048·j … 2048·j + 2047`), and writes tile `(i, j)` of the output. An entry of the low-rank
  product depends only on its row of the input, the first factor, and its column of the second factor
  (`LowRank.entry_congr`), so what the step stores (`Payload.stored_apply`) is exactly tile `(i, j)` of the product of the
  whole arrays. The 32 tiles cover the 8192 × 4096 output (row `r` lies in row block `r / 512`, column `s` in column
  block `s / 2048`), so after the run the output array is the product.
  Before the grid the program converts the two factors to a narrower float format; over the extended reals that
  conversion is the identity, so the arrays the grid reads are the arguments themselves.
-/
import proofs.«425009_j85633057948172_3_alg».proof.Proof.Gen.KernelIdeal.Value
import proofs.«425009_j85633057948172_3_alg».proof.Proof.Payload
import Idealize.ShloMosaic.Lib.StableHlo.Run

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the grid reads, and each step's blocks, as matrices over the extended reals -/

/-- The input as the grid finds it, -/
abbrev inputArr (c : Dev nD) : Vec Ideal S8192x4096 .f32 := V m c main_arg0
/-- the first factor after its format conversion, -/
abbrev firstArr (c : Dev nD) : Vec Ideal S4096x128 .bf16 := V m c main_v0
/-- and the second factor after its. -/
abbrev secondArr (c : Dev nD) : Vec Ideal S128x4096 .bf16 := V m c main_v1

/-- Step `t`'s block of the input, -/
abbrev inputBlk (c : Dev nD) (t : Fin cfg0.N) : Vec Ideal S512x4096 .f32 := iblk m c 0 t
/-- of the first factor (always the whole of it), -/
abbrev firstBlk (c : Dev nD) (t : Fin cfg0.N) : Vec Ideal S4096x128 .bf16 := iblk m c 1 t
/-- and of the second factor. -/
abbrev secondBlk (c : Dev nD) (t : Fin cfg0.N) : Vec Ideal S128x2048 .bf16 := iblk m c 2 t

/-! ## Where each step's blocks lie -/

theorem origin : (![0, 0] : Fin 2 → Nat) = fun _ => 0 := funext fun a => by fin_cases a <;> rfl

/-- The block indices, decided over the 32 steps: the input's row block is the output tile's, and it spans all columns;
    the first factor is one block; the second factor spans all rows and its column block is the output tile's. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every one of the 16 × 2 output tiles is some step's. -/
theorem tile_of : ∀ (i : Fin 16) (j : Fin 2), ∃ t : Fin cfg0.N, win0_3.index t = ![i.val, j.val] :=
  (by decide +kernel : ∀ (i : Fin 16) (j : Fin 2), ∃ t : Fin grid0.N, win0_3.index t = ![i.val, j.val])

/-- Row `p` of step `t`'s input block is row `512·i + p` of the input, `i` the step's row block. -/
theorem inputBlk_apply (c : Dev nD) (t : Fin cfg0.N) (p : Fin 512) (k : Fin 4096) (P : Fin 8192)
    (hP : P.val = win0_3.index t (0 : Fin 2) * 512 + 1 * p.val) :
    inputBlk m c t (ix2 p k) = inputArr m c (ix2 P k) := by
  obtain ⟨e0, e1, -⟩ := block_indices t
  show V m c main_arg0 (((cfg0.win 0).blk t).view.emb (ix2 p k)) = V m c main_arg0 (ix2 P k)
  refine congrArg (V m c main_arg0) (funext fun a => Fin.ext ?_)
  match a with
  | ⟨0, _⟩ => show win0_0.index t (0 : Fin 2) * 512 + 1 * p.val = P.val; omega
  | ⟨1, _⟩ => show win0_0.index t (1 : Fin 2) * 4096 + 1 * k.val = k.val; omega

/-- The first factor's block is the whole factor. -/
theorem firstBlk_apply (c : Dev nD) (t : Fin cfg0.N) (k : Fin 4096) (r : Fin 128) :
    firstBlk m c t (ix2 k r) = firstArr m c (ix2 k r) := by
  obtain ⟨-, -, e2, e3, -⟩ := block_indices t
  show V m c main_v0 (((cfg0.win 1).blk t).view.emb (ix2 k r)) = V m c main_v0 (ix2 k r)
  refine congrArg (V m c main_v0) (funext fun a => Fin.ext ?_)
  match a with
  | ⟨0, _⟩ => show win0_1.index t (0 : Fin 2) * 4096 + 1 * k.val = k.val; omega
  | ⟨1, _⟩ => show win0_1.index t (1 : Fin 2) * 128 + 1 * r.val = r.val; omega

/-- Column `q` of step `t`'s block of the second factor is column `2048·j + q` of it, `j` the step's column block. -/
theorem secondBlk_apply (c : Dev nD) (t : Fin cfg0.N) (r : Fin 128) (q : Fin 2048) (Q : Fin 4096)
    (hQ : Q.val = win0_3.index t (1 : Fin 2) * 2048 + 1 * q.val) :
    secondBlk m c t (ix2 r q) = secondArr m c (ix2 r Q) := by
  obtain ⟨-, -, -, -, e4, e5⟩ := block_indices t
  show V m c main_v1 (((cfg0.win 2).blk t).view.emb (ix2 r q)) = V m c main_v1 (ix2 r Q)
  refine congrArg (V m c main_v1) (funext fun a => Fin.ext ?_)
  match a with
  | ⟨0, _⟩ => show win0_2.index t (0 : Fin 2) * 128 + 1 * r.val = r.val; omega
  | ⟨1, _⟩ => show win0_2.index t (1 : Fin 2) * 2048 + 1 * q.val = Q.val; omega

/-! ## What a step writes back is its tile of the product -/

/-- Step `t` writes back tile `t` of the low-rank product of the arrays the grid reads. -/
theorem flushed_eq (c : Dev nD) (t : Fin cfg0.N) :
    (dats m 0 c).flushed 3 t
      = ((cfg0.win 3).blk t).view.read (Elt Ideal) (Cert.LowRank.product (inputArr m c) (firstArr m c) (secondArr m c)) := by
  rw [Cert.KernelIdeal.Value.flushed3]
  unfold out0_3
  rw [View.canon_unit_zero origin]
  simp only [View.ld_unit_zero (S := S512x4096) origin, View.ld_unit_zero (S := S4096x128) origin,
    View.ld_unit_zero (S := S128x2048) origin]
  funext j
  obtain ⟨p, q, rfl⟩ : ∃ (p : Fin 512) (q : Fin 2048), j = ix2 p q := ⟨j 0, j 1, eq_ix2 j⟩
  show k0_pay1 (F := Ideal) (inputBlk m c t) (firstBlk m c t) (secondBlk m c t) (ix2 p q)
    = Cert.LowRank.entry (inputArr m c) (firstArr m c) (secondArr m c)
        ((((cfg0.win 3).blk t).view.emb (ix2 p q)) 0) ((((cfg0.win 3).blk t).view.emb (ix2 p q)) 1)
  refine (Cert.KernelIdeal.Payload.stored_apply (inputBlk m c t) (firstBlk m c t) (secondBlk m c t) p q).trans ?_
  exact Cert.LowRank.entry_congr (inputBlk m c t) (inputArr m c) (firstBlk m c t) (firstArr m c) (secondBlk m c t) (secondArr m c)
    p _ q _
    (fun k => inputBlk_apply m c t p k _ rfl)
    (fun k r => firstBlk_apply m c t k r)
    (fun r => secondBlk_apply m c t r q _ rfl)

/-! ## The tiles cover the output -/

/-- An index of the output is in step `t`'s tile iff each coordinate is in the tile's range on its axis. -/
theorem mem_tile (t : Fin cfg0.N) (i : S8192x4096.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v2).slice (win0_3.rect t)).set ↔ _
  rw [View.set_slice_whole, Rect.mem_set_unit]
  exact Iff.rfl

/-- Every index of the output lies in some step's tile: row `r` in row block `r / 512`, column `s` in column block `s / 2048`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := tile_of ⟨(i 0).val / 512, by omega⟩ ⟨(i 1).val / 2048, by omega⟩
  have q0 : win0_3.index t (0 : Fin 2) = (i 0).val / 512 := congrFun ht 0
  have q1 : win0_3.index t (1 : Fin 2) = (i 1).val / 2048 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-! ## The arrays the grid reads are the arguments -/

theorem inputArr_eq (c : Dev nD) : inputArr m c = m ((c : Thread nD τ).loc main_arg0) := V_main_arg0 m c

/-- The first factor after its conversion is the argument: over the extended reals the conversion is the identity. -/
theorem firstArr_eq (c : Dev nD) : (firstArr m c : S4096x128.Idx → EReal) = (m ((c : Thread nD τ).loc main_arg1) : S4096x128.Idx → EReal) := by
  have e : (V m c main_v0 : S4096x128.Idx → EReal) = truncf (F := Ideal) .bf16 (m ((c : Thread nD τ).loc main_arg1)) bitsLt_bf16_f32 := by
    dsimp only [V, hostOps0]; after_results
  exact e

/-- And so is the second factor. -/
theorem secondArr_eq (c : Dev nD) : (secondArr m c : S128x4096.Idx → EReal) = (m ((c : Thread nD τ).loc main_arg2) : S128x4096.Idx → EReal) := by
  have e : (V m c main_v1 : S128x4096.Idx → EReal) = truncf (F := Ideal) .bf16 (m ((c : Thread nD τ).loc main_arg2)) bitsLt_bf16_f32 := by
    dsimp only [V, hostOps0]; after_results
  exact e

/-! ## The output array after the run, and the run -/

/-- After the run the output array is the low-rank product of the three arguments. -/
theorem final (c : Dev nD) :
    (dats m 0 c).arrAt 3 cfg0.N
      = Cert.LowRank.product (m ((c : Thread nD τ).loc main_arg0)) (m ((c : Thread nD τ).loc main_arg1)) (m ((c : Thread nD τ).loc main_arg2)) := by
  rw [← inputArr_eq m c, ← firstArr_eq m c, ← secondArr_eq m c]
  exact (dats m 0 c).arrAt_eq_of_cover 3 _ (fun t _ => flushed_eq m c t) covered

/-- Every weakly fair execution of the program ends with the output array at the product and the arguments unchanged. -/
theorem run : θ_run defs (onTc (τ := τ) (main (F := Ideal))) ⟨m, fun _ => 0, ρ⟩ fun r => ∀ c : Dev nD,
      r.2.mem ((c : Thread nD τ).loc main_v2)
        = Cert.LowRank.product (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Tiles

end
-- ==== Proof.lean ====
/-
  The kernel computes `(input · A) · B` for an 8192 × 4096 input, a 4096 × 128 factor `A` and a 128 × 4096 factor `B`,
  tile by tile on a 16 × 2 grid: each step multiplies a 512-row block of the input by the whole of `A` and the result by
  a 2048-column block of `B`. The reference computes the same two products on whole arrays. Over the extended reals,
  where a change of float format is the identity and a product into a zero accumulator is a plain sum, both results are
  the one double sum `Σ_r (Σ_k input[p,k] · A[k,r]) · B[r,q]` at every row `p` and column `q` (`LowRank.product`), in the
  same grouping on both sides: no sum is re-ordered and nothing is distributed, so the claim holds for every input and
  the finiteness precondition is never opened.
  The pieces: `LowRank` (the double sum, and that an entry reads one row of the input and one column of `B`);
  `ReferenceValue` (the reference's two products are that sum); `Payload` (what one grid step stores is that sum over
  its loaded blocks); `Tiles` (each step's tile is the matching tile of the whole product, and the 32 tiles cover the
  output). The idealization rewrote no operation, so `preserves` has nothing to state.
-/
import proofs.«425009_j85633057948172_3_alg».proof.Defs
import proofs.«425009_j85633057948172_3_alg».proof.Proof.Gen.Kernel
import proofs.«425009_j85633057948172_3_alg».proof.Proof.Gen.Kernel.Skeleton
import proofs.«425009_j85633057948172_3_alg».proof.Proof.Gen.Kernel.Launch
import proofs.«425009_j85633057948172_3_alg».proof.Proof.Gen.Kernel.Points
import proofs.«425009_j85633057948172_3_alg».proof.Proof.Gen.Kernel.Frame
import proofs.«425009_j85633057948172_3_alg».proof.Proof.Gen.KernelIdeal
import proofs.«425009_j85633057948172_3_alg».proof.Proof.Gen.KernelIdeal.Skeleton
import proofs.«425009_j85633057948172_3_alg».proof.Proof.Gen.KernelIdeal.Launch
import proofs.«425009_j85633057948172_3_alg».proof.Proof.Gen.KernelIdeal.Points
import proofs.«425009_j85633057948172_3_alg».proof.Proof.Gen.KernelIdeal.Frame
import proofs.«425009_j85633057948172_3_alg».proof.Proof.Gen.ReferenceIdeal
import proofs.«425009_j85633057948172_3_alg».proof.Proof.Gen.Pre_finite_inputs
import proofs.«425009_j85633057948172_3_alg».proof.Proof.Gen.KernelIdeal.Value
import proofs.«425009_j85633057948172_3_alg».proof.Proof.Gen.ReferenceIdeal.Run
import proofs.«425009_j85633057948172_3_alg».proof.Proof.Gen.ReferenceIdeal.Read
import proofs.«425009_j85633057948172_3_alg».proof.Proof.LowRank
import proofs.«425009_j85633057948172_3_alg».proof.Proof.ReferenceValue
import proofs.«425009_j85633057948172_3_alg».proof.Proof.Payload
import proofs.«425009_j85633057948172_3_alg».proof.Proof.Tiles
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is two host operations; its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the three arguments both programs end with the low-rank product of those arguments in
    their result array: the kernel tile by tile (`Tiles.run`), the reference as two whole products
    (`RefValue.result_eq`). -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
